-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096x4x2048 : Shape := ⟨4, ![4, 4096, 4, 2048]⟩
abbrev S4x4096x4 : Shape := ⟨3, ![4, 4096, 4]⟩
abbrev S4x4096x4x4 : Shape := ⟨4, ![4, 4096, 4, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x4096x4x2048 : S_.BroadcastsInDim S4x4096x4x2048 (![] : Fin 0 → Fin S4x4096x4x2048.rank)
  reducesTo_S4x4096x4x2048_S_d0_1_2_3 : S4x4096x4x2048.ReducesTo [0, 1, 2, 3] S_
  bcast_S_S4x4096x4 : S_.BroadcastsInDim S4x4096x4 (![] : Fin 0 → Fin S4x4096x4.rank)
  reducesTo_S4x4096x4_S_d0_1_2 : S4x4096x4.ReducesTo [0, 1, 2] S_
  bcast_S_S4x4096x4x4 : S_.BroadcastsInDim S4x4096x4x4 (![] : Fin 0 → Fin S4x4096x4x4.rank)
  reducesTo_S4x4096x4x4_S_d0_1_2_3 : S4x4096x4x4.ReducesTo [0, 1, 2, 3] S_

variable [Facts]

def fn_part1 {F : FTy → Type} [FloatOps F] (main_v13 : IVec S_ 1) (main_v16 : IVec S4x4096x4x4 1) : IVec S_ 1 :=
  let main_c_5 : IVec S_ 1 := constantI S_ 1 1#1
  let main_v17 : IVec S_ 1 := (fun x v => Host.reduce IntOp.andi x v reducesTo_S4x4096x4x4_S_d0_1_2_3 h_S_) main_v16 main_c_5
  let main_v18 : IVec S_ 1 := andi main_v13 main_v17
  main_v18

def fn {F : FTy → Type} [FloatOps F] (main_arg0 : FVec F S4x4096x2048 .f32) (main_arg1 : FVec F S4x4096x4x2048 .f32) (main_arg2 : FVec F S4x4096x4 .f32) (main_arg3 : FVec F S4x4096x4x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x4x2048 .f32 := Host.absf main_arg1
  let main_cst_0 : FVec F S_ .f32 := constant S_ .f32 0x7F800000#32
  let main_v5 : FVec F S4x4096x4x2048 .f32 := broadcastInDim S4x4096x4x2048 ![] bcast_S_S4x4096x4x2048 main_cst_0
  let main_v6 : IVec S4x4096x4x2048 1 := cmpf .olt main_v4 main_v5
  let main_c_1 : IVec S_ 1 := constantI S_ 1 1#1
  let main_v7 : IVec S_ 1 := (fun x v => Host.reduce IntOp.andi x v reducesTo_S4x4096x4x2048_S_d0_1_2_3 h_S_) main_v6 main_c_1
  let main_v8 : IVec S_ 1 := andi main_v3 main_v7
  let main_v9 : FVec F S4x4096x4 .f32 := Host.absf main_arg2
  let main_cst_2 : FVec F S_ .f32 := constant S_ .f32 0x7F800000#32
  let main_v10 : FVec F S4x4096x4 .f32 := broadcastInDim S4x4096x4 ![] bcast_S_S4x4096x4 main_cst_2
  let main_v11 : IVec S4x4096x4 1 := cmpf .olt main_v9 main_v10
  let main_c_3 : IVec S_ 1 := constantI S_ 1 1#1
  let main_v12 : IVec S_ 1 := (fun x v => Host.reduce IntOp.andi x v reducesTo_S4x4096x4_S_d0_1_2 h_S_) main_v11 main_c_3
  let main_v13 : IVec S_ 1 := andi main_v8 main_v12
  let main_v14 : FVec F S4x4096x4x4 .f32 := Host.absf main_arg3
  let main_cst_4 : FVec F S_ .f32 := constant S_ .f32 0x7F800000#32
  let main_v15 : FVec F S4x4096x4x4 .f32 := broadcastInDim S4x4096x4x4 ![] bcast_S_S4x4096x4x4 main_cst_4
  let main_v16 : IVec S4x4096x4x4 1 := cmpf .olt main_v14 main_v15
  fn_part1 (F := F) main_v13 main_v16
-- ==== Kernel.lean ====
abbrev S4x4096x2048 : Shape := ⟨3, ![4, 4096, 2048]⟩
abbrev S4x4096x4x2048 : Shape := ⟨4, ![4, 4096, 4, 2048]⟩
abbrev S4x4096x4 : Shape := ⟨3, ![4, 4096, 4]⟩
abbrev S4x4096x4x4 : Shape := ⟨4, ![4, 4096, 4, 4]⟩
abbrev S1x128x2048 : Shape := ⟨3, ![1, 128, 2048]⟩
abbrev S1x128x4x2048 : Shape := ⟨4, ![1, 128, 4, 2048]⟩
abbrev S1x128x4 : Shape := ⟨3, ![1, 128, 4]⟩
abbrev S1x128x4x4 : Shape := ⟨4, ![1, 128, 4, 4]⟩
abbrev S128x2048 : Shape := ⟨2, ![128, 2048]⟩
abbrev S128x4 : Shape := ⟨2, ![128, 4]⟩
abbrev S128x4x4 : Shape := ⟨3, ![128, 4, 4]⟩
abbrev S128x4x2048 : Shape := ⟨3, ![128, 4, 2048]⟩
abbrev S128x4x1 : Shape := ⟨3, ![128, 4, 1]⟩
abbrev S128x1x2048 : Shape := ⟨3, ![128, 1, 2048]⟩
abbrev S128x1x4 : Shape := ⟨3, ![128, 1, 4]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x4x2048, .f32⟩
  | .hbm, ⟨2, _⟩ => ⟨S4x4096x4, .f32⟩
  | .hbm, ⟨3, _⟩ => ⟨S4x4096x4x4, .f32⟩
  | .hbm, ⟨4, _⟩ => ⟨S4x4096x4x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x4x2048, .f32⟩
  | .local _ .vmem, ⟨3, _⟩ => ⟨S1x128x4x2048, .f32⟩
  | .local _ .vmem, ⟨4, _⟩ => ⟨S1x128x4, .f32⟩
  | .local _ .vmem, ⟨5, _⟩ => ⟨S1x128x4, .f32⟩
  | .local _ .vmem, ⟨6, _⟩ => ⟨S1x128x4x4, .f32⟩
  | .local _ .vmem, ⟨7, _⟩ => ⟨S1x128x4x4, .f32⟩
  | .local _ .vmem, ⟨8, _⟩ => ⟨S1x128x4x2048, .f32⟩
  | .local _ .vmem, ⟨9, _⟩ => ⟨S1x128x4x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  inb_S1x128x4x4_S1x128x4x4_0_0_0_0 : ∀ a, (![0, 0, 0, 0] : Fin 4 → Nat) a + S1x128x4x4.size a ≤ S1x128x4x4.size a
  h_S1x128x4x4 : 0 < S1x128x4x4.numel
  shapeCasts_S1x128x4x4_S128x4x4 : S1x128x4x4.ShapeCasts S128x4x4
  inb_S1x128x4x2048_S1x128x4x2048_0_0_0_0 : ∀ a, (![0, 0, 0, 0] : Fin 4 → Nat) a + S1x128x4x2048.size a ≤ S1x128x4x2048.size a
  h_S1x128x4x2048 : 0 < S1x128x4x2048.numel
  shapeCasts_S1x128x4x2048_S128x4x2048 : S1x128x4x2048.ShapeCasts S128x4x2048
  shapeCasts_S128x4_S128x4x1 : S128x4.ShapeCasts S128x4x1
  shapeCasts_S128x2048_S128x1x2048 : S128x2048.ShapeCasts S128x1x2048
  broadcasts_S128x4x1_S128x4x2048 : S128x4x1.Broadcasts S128x4x2048
  broadcasts_S128x1x2048_S128x4x2048 : S128x1x2048.Broadcasts S128x4x2048
  slices_S128x4x4_o0_0_0_S128x1x4 : S128x4x4.Slices ![0, 0, 0] S128x1x4
  shapeCasts_S128x1x4_S128x4 : S128x1x4.ShapeCasts S128x4
  slices_S128x4x2048_o0_0_0_S128x1x2048 : S128x4x2048.Slices ![0, 0, 0] S128x1x2048
  shapeCasts_S128x1x2048_S128x2048 : S128x1x2048.ShapeCasts S128x2048
  slices_S128x4x4_o0_1_0_S128x1x4 : S128x4x4.Slices ![0, 1, 0] S128x1x4
  slices_S128x4x2048_o0_1_0_S128x1x2048 : S128x4x2048.Slices ![0, 1, 0] S128x1x2048
  slices_S128x4x4_o0_2_0_S128x1x4 : S128x4x4.Slices ![0, 2, 0] S128x1x4
  slices_S128x4x2048_o0_2_0_S128x1x2048 : S128x4x2048.Slices ![0, 2, 0] S128x1x2048
  slices_S128x4x4_o0_3_0_S128x1x4 : S128x4x4.Slices ![0, 3, 0] S128x1x4
  slices_S128x4x2048_o0_3_0_S128x1x2048 : S128x4x2048.Slices ![0, 3, 0] S128x1x2048
  shapeCasts_S128x4x2048_S1x128x4x2048 : S128x4x2048.ShapeCasts S1x128x4x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S4x4096x2048.size a
  hwx0_0 : ∀ i : grid0.Coords, EltTy.bits .f32 = 32 ∨ (Rect.block (s := S4x4096x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4x2048.size a ≤ S4x4096x4x2048.size a
  hwx0_1 : ∀ i : grid0.Coords, EltTy.bits .f32 = 32 ∨ (Rect.block (s := S4x4096x4x2048) S1x128x4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4.size a ≤ S4x4096x4.size a
  hwx0_2 : ∀ i : grid0.Coords, EltTy.bits .f32 = 32 ∨ (Rect.block (s := S4x4096x4) S1x128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4x4.size a ≤ S4x4096x4x4.size a
  hwx0_3 : ∀ i : grid0.Coords, EltTy.bits .f32 = 32 ∨ (Rect.block (s := S4x4096x4x4) S1x128x4x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4x2048.size a ≤ S4x4096x4x2048.size a
  hwx0_4 : ∀ i : grid0.Coords, EltTy.bits .f32 = 32 ∨ (Rect.block (s := S4x4096x4x2048) S1x128x4x2048.size (cc0_transform_4 i) (hinb0_4 i)).WholeWords (EltTy.packing .f32)

variable [Facts₀]

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x4x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x4x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096x4x2048 : Shape := ⟨4, ![4, 4096, 4, 2048]⟩
abbrev S4x4096x4 : Shape := ⟨3, ![4, 4096, 4]⟩
abbrev S4x4096x4x4 : Shape := ⟨4, ![4, 4096, 4, 4]⟩
abbrev S4x4096x4x1 : Shape := ⟨4, ![4, 4096, 4, 1]⟩
abbrev S4x4096x1x2048 : Shape := ⟨4, ![4, 4096, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x4x2048, .f32⟩
  | .hbm, ⟨2, _⟩ => ⟨S4x4096x4, .f32⟩
  | .hbm, ⟨3, _⟩ => ⟨S4x4096x4x4, .f32⟩
  | .hbm, ⟨4, _⟩ => ⟨S4x4096x4x1, .f32⟩
  | .hbm, ⟨5, _⟩ => ⟨S4x4096x1x2048, .f32⟩
  | .hbm, ⟨6, _⟩ => ⟨S4x4096x4x2048, .f32⟩
  | .hbm, ⟨7, _⟩ => ⟨S4x4096x4x2048, .f32⟩
  | .hbm, ⟨8, _⟩ => ⟨S4x4096x4x2048, .f32⟩
  | .hbm, ⟨9, _⟩ => ⟨S4x4096x4x2048, .f32⟩
  | .hbm, ⟨10, _⟩ => ⟨S4x4096x4x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4x4096x4_S4x4096x4x1_0_1_2 : S4x4096x4.BroadcastsInDim S4x4096x4x1 (![0, 1, 2] : Fin 3 → Fin S4x4096x4x1.rank)
  bcast_S4x4096x2048_S4x4096x1x2048_0_1_3 : S4x4096x2048.BroadcastsInDim S4x4096x1x2048 (![0, 1, 3] : Fin 3 → Fin S4x4096x1x2048.rank)
  bcast_S4x4096x4x1_S4x4096x4x2048_0_1_2_3 : S4x4096x4x1.BroadcastsInDim S4x4096x4x2048 (![0, 1, 2, 3] : Fin 4 → Fin S4x4096x4x2048.rank)
  bcast_S4x4096x1x2048_S4x4096x4x2048_0_1_2_3 : S4x4096x1x2048.BroadcastsInDim S4x4096x4x2048 (![0, 1, 2, 3] : Fin 4 → Fin S4x4096x4x2048.rank)
  dot_S4x4096x4x4_S4x4096x4x2048_S4x4096x4x2048_2_2_3_3_01_01_wf : DotDims.WF S4x4096x4x4 S4x4096x4x2048 S4x4096x4x2048 [2] [2] [3] [3] [0, 1] [0, 1]

variable [Facts₀]

def dot_S4x4096x4x4_S4x4096x4x2048_S4x4096x4x2048_2_2_3_3_01_01 : DotDims S4x4096x4x4 S4x4096x4x2048 S4x4096x4x2048 where
  lhsContracting := [2]
  rhsContracting := [2]
  lhsNonContracting := [3]
  rhsNonContracting := [3]
  lhsBatch := [0, 1]
  rhsBatch := [0, 1]
  wf := dot_S4x4096x4x4_S4x4096x4x2048_S4x4096x4x2048_2_2_3_3_01_01_wf

class Facts : Prop extends Facts₀ where

variable [Facts]
-- ==== Proof.MixSpec.lean ====
/-
  What both programs compute, as one function of the four argument arrays on the extended reals.

  The arrays: `x` over (batch 4, position 4096, feature 2048); `res` and the result over (batch, position,
  stream 4, feature); `post` over (batch, position, stream); `comb` over (batch, position, stream, stream).
  At (b, s, n, d) the result is the outer-product entry `post (b, s, n) · x (b, s, d)` plus the contraction over the
  incoming stream `k` of `comb (b, s, k, n) · res (b, s, k, d)`.

  The kernel adds the four contraction terms onto the outer-product entry one after the other; the reference forms
  the contraction's sum first and adds it once. The two groupings agree because addition on the extended reals is
  associative (it is a commutative monoid, infinities included), so no finiteness of the inputs is used.
-/
import Idealize.ShloMosaic.PureOps.Ideal
import Idealize.ShloMosaic.Lib.ValueIdx

noncomputable section

open scoped BigOperators

namespace Cert.PostMix

open Idealize.ShloMosaic Idealize.ShloMosaic.ValueIdx

/-- (batch, position, feature). -/
abbrev XShape : Shape := ⟨3, ![4, 4096, 2048]⟩
/-- (batch, position, stream, feature): the residual streams, and the result. -/
abbrev RShape : Shape := ⟨4, ![4, 4096, 4, 2048]⟩
/-- (batch, position, stream). -/
abbrev PShape : Shape := ⟨3, ![4, 4096, 4]⟩
/-- (batch, position, incoming stream, outgoing stream). -/
abbrev CShape : Shape := ⟨4, ![4, 4096, 4, 4]⟩

/-- The result's entry at batch `b`, position `s`, outgoing stream `n`, feature `d`. -/
def mixedAt (x : XShape.Idx → EReal) (res : RShape.Idx → EReal) (post : PShape.Idx → EReal) (comb : CShape.Idx → EReal)
    (b : Fin 4) (s : Fin 4096) (n : Fin 4) (d : Fin 2048) : EReal :=
  post (ix3 b s n) * x (ix3 b s d) + ∑ k : Fin 4, comb (ix4 b s k n) * res (ix4 b s k d)

/-- The whole result array. -/
def mixed (x : XShape.Idx → EReal) (res : RShape.Idx → EReal) (post : PShape.Idx → EReal) (comb : CShape.Idx → EReal) :
    RShape.Idx → EReal :=
  fun i => mixedAt x res post comb (i 0) (i 1) (i 2) (i 3)

/-- Four terms added one after the other onto `o` are `o` plus their sum: associativity of `+`, which holds on the
    extended reals without any finiteness. -/
theorem nested_eq_sum (o : EReal) (t : Fin 4 → EReal) : o + t 0 + t 1 + t 2 + t 3 = o + ∑ k : Fin 4, t k := by
  rw [Fin.sum_univ_four]
  simp only [add_assoc]

end Cert.PostMix

end
-- ==== Proof.BlockMixed.lean ====
/-
  The kernel's result array is `mixed` of its arguments.

  The grid has one point per (batch b, tile q) with 32 tiles of 128 positions. At that point each window's block is
  the slab of its array at batch `b`, positions `128·q … 128·q + 127`, whole on the remaining axes; the output block is
  the same slab of the result. Entry (r, n, d) of the block the body leaves is

    post (r, n) · x (r, d) + comb (r, 0, n) · res (r, 0, d) + comb (r, 1, n) · res (r, 1, d)
      + comb (r, 2, n) · res (r, 2, d) + comb (r, 3, n) · res (r, 3, d),

  the four products added on one after the other (the generated value leg's canon of the body's one store, read at
  the block index). Each factor is its argument array at batch `b`, position `128·q + r`, so by associativity of `+` the
  entry is `mixedAt` at (b, 128·q + r, n, d): the point writes back the block of `mixed` under it. The 4 × 32 output
  blocks tile the result array, so the array ends at `mixed`.
-/
import proofs.«112528_j41798621724794_1_alg».proof.Proof.Gen.KernelIdeal.Value
import proofs.«112528_j41798621724794_1_alg».proof.Proof.MixSpec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.PostMix.Kernel

open Cert.KernelIdeal Cert.KernelIdeal.Gen Cert.KernelIdeal.Value Cert.PostMix

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## Where the blocks lie -/

/-- At every grid point the four input windows sit at the output window's batch and tile, and every window is at
    block 0 on its remaining axes (decided over the 128 points). -/
theorem index_facts : ∀ t : Fin cfg0.N,
    win0_4.index t (2 : Fin 4) = 0 ∧ win0_4.index t (3 : Fin 4) = 0
    ∧ win0_0.index t (0 : Fin 3) = win0_4.index t (0 : Fin 4) ∧ win0_0.index t (1 : Fin 3) = win0_4.index t (1 : Fin 4) ∧ win0_0.index t (2 : Fin 3) = 0
    ∧ win0_1.index t (0 : Fin 4) = win0_4.index t (0 : Fin 4) ∧ win0_1.index t (1 : Fin 4) = win0_4.index t (1 : Fin 4) ∧ win0_1.index t (2 : Fin 4) = 0 ∧ win0_1.index t (3 : Fin 4) = 0
    ∧ win0_2.index t (0 : Fin 3) = win0_4.index t (0 : Fin 4) ∧ win0_2.index t (1 : Fin 3) = win0_4.index t (1 : Fin 4) ∧ win0_2.index t (2 : Fin 3) = 0
    ∧ win0_3.index t (0 : Fin 4) = win0_4.index t (0 : Fin 4) ∧ win0_3.index t (1 : Fin 4) = win0_4.index t (1 : Fin 4) ∧ win0_3.index t (2 : Fin 4) = 0 ∧ win0_3.index t (3 : Fin 4) = 0 :=
  (by decide +kernel : ∀ t : Fin grid0.N, _)

/-- Every (batch, tile) pair is some grid point's output block. -/
theorem index_onto : ∀ (b : Fin 4) (q : Fin 32), ∃ t : Fin cfg0.N, win0_4.index t = ![b.val, q.val, 0, 0] :=
  (by decide +kernel : ∀ (b : Fin 4) (q : Fin 32), ∃ t : Fin grid0.N, win0_4.index t = ![b.val, q.val, 0, 0])

/-! ## Each input block is a slab of its argument array -/

/-- `x`'s block at point `t`, entry `y`, is `x` at the index whose coordinates are block index × block extent + `y`'s. -/
theorem x_read (c : Dev nD) (t : Fin cfg0.N) (y : S1x128x2048.Idx) (k : S4x4096x2048.Idx)
    (h0 : (k 0).val = win0_0.index t (0 : Fin 3) * 1 + (y 0).val)
    (h1 : (k 1).val = win0_0.index t (1 : Fin 3) * 128 + (y 1).val)
    (h2 : (k 2).val = win0_0.index t (2 : Fin 3) * 2048 + (y 2).val) :
    (iblk m c 0 t : Vec Ideal S1x128x2048 .f32) y = (V m c main_arg0 : S4x4096x2048.Idx → EReal) k := by
  unfold iblk
  rw [View.read_apply]
  show V m c main_arg0 _ = V m c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 128 + 1 * (y 1).val = (k 1).val; omega
  | ⟨2, _⟩ => show win0_0.index t (2 : Fin 3) * 2048 + 1 * (y 2).val = (k 2).val; omega

/-- The same for the residual streams' block. -/
theorem res_read (c : Dev nD) (t : Fin cfg0.N) (y : S1x128x4x2048.Idx) (k : S4x4096x4x2048.Idx)
    (h0 : (k 0).val = win0_1.index t (0 : Fin 4) * 1 + (y 0).val)
    (h1 : (k 1).val = win0_1.index t (1 : Fin 4) * 128 + (y 1).val)
    (h2 : (k 2).val = win0_1.index t (2 : Fin 4) * 4 + (y 2).val)
    (h3 : (k 3).val = win0_1.index t (3 : Fin 4) * 2048 + (y 3).val) :
    (iblk m c 1 t : Vec Ideal S1x128x4x2048 .f32) y = (V m c main_arg1 : S4x4096x4x2048.Idx → EReal) k := by
  unfold iblk
  rw [View.read_apply]
  show V m c main_arg1 _ = V m c main_arg1 _
  congr 1
  funext a
  apply Fin.ext
  match a with
  | ⟨0, _⟩ => show win0_1.index t (0 : Fin 4) * 1 + 1 * (y 0).val = (k 0).val; omega
  | ⟨1, _⟩ => show win0_1.index t (1 : Fin 4) * 128 + 1 * (y 1).val = (k 1).val; omega
  | ⟨2, _⟩ => show win0_1.index t (2 : Fin 4) * 4 + 1 * (y 2).val = (k 2).val; omega
  | ⟨3, _⟩ => show win0_1.index t (3 : Fin 4) * 2048 + 1 * (y 3).val = (k 3).val; omega

/-- The same for `post`'s block. -/
theorem post_read (c : Dev nD) (t : Fin cfg0.N) (y : S1x128x4.Idx) (k : S4x4096x4.Idx)
    (h0 : (k 0).val = win0_2.index t (0 : Fin 3) * 1 + (y 0).val)
    (h1 : (k 1).val = win0_2.index t (1 : Fin 3) * 128 + (y 1).val)
    (h2 : (k 2).val = win0_2.index t (2 : Fin 3) * 4 + (y 2).val) :
    (iblk m c 2 t : Vec Ideal S1x128x4 .f32) y = (V m c main_arg2 : S4x4096x4.Idx → EReal) k := by
  unfold iblk
  rw [View.read_apply]
  show V m c main_arg2 _ = V m c main_arg2 _
  congr 1
  funext a
  apply Fin.ext
  match a with
  | ⟨0, _⟩ => show win0_2.index t (0 : Fin 3) * 1 + 1 * (y 0).val = (k 0).val; omega
  | ⟨1, _⟩ => show win0_2.index t (1 : Fin 3) * 128 + 1 * (y 1).val = (k 1).val; omega
  | ⟨2, _⟩ => show win0_2.index t (2 : Fin 3) * 4 + 1 * (y 2).val = (k 2).val; omega

/-- The same for `comb`'s block. -/
theorem comb_read (c : Dev nD) (t : Fin cfg0.N) (y : S1x128x4x4.Idx) (k : S4x4096x4x4.Idx)
    (h0 : (k 0).val = win0_3.index t (0 : Fin 4) * 1 + (y 0).val)
    (h1 : (k 1).val = win0_3.index t (1 : Fin 4) * 128 + (y 1).val)
    (h2 : (k 2).val = win0_3.index t (2 : Fin 4) * 4 + (y 2).val)
    (h3 : (k 3).val = win0_3.index t (3 : Fin 4) * 4 + (y 3).val) :
    (iblk m c 3 t : Vec Ideal S1x128x4x4 .f32) y = (V m c main_arg3 : S4x4096x4x4.Idx → EReal) k := by
  unfold iblk
  rw [View.read_apply]
  show V m c main_arg3 _ = V m c main_arg3 _
  congr 1
  funext a
  apply Fin.ext
  match a with
  | ⟨0, _⟩ => show win0_3.index t (0 : Fin 4) * 1 + 1 * (y 0).val = (k 0).val; omega
  | ⟨1, _⟩ => show win0_3.index t (1 : Fin 4) * 128 + 1 * (y 1).val = (k 1).val; omega
  | ⟨2, _⟩ => show win0_3.index t (2 : Fin 4) * 4 + 1 * (y 2).val = (k 2).val; omega
  | ⟨3, _⟩ => show win0_3.index t (3 : Fin 4) * 4 + 1 * (y 3).val = (k 3).val; omega

/-! ## One entry of the block the body leaves -/

/-- If the blocks `bp`, `bx`, `bc`, `br` hold, at the indices the body reads for block entry `j`, the arrays' entries
    for batch `b`, position `s`, outgoing stream `n` and feature `d`, then what the body leaves at `j` — the four
    products added on in turn — is `mixedAt` there: `nested_eq_sum`. -/
theorem block_entry (x : XShape.Idx → EReal) (res : RShape.Idx → EReal) (post : PShape.Idx → EReal) (comb : CShape.Idx → EReal)
    (bp : Vec Ideal S1x128x4 .f32) (bx : Vec Ideal S1x128x2048 .f32) (bc : Vec Ideal S1x128x4x4 .f32) (br : Vec Ideal S1x128x4x2048 .f32)
    (j : S1x128x4x2048.Idx) (b : Fin 4) (s : Fin 4096) (n : Fin 4) (d : Fin 2048)
    (hp : bp (ix4_0 j) = post (ix3 b s n)) (hx : bx (ix4_1 j) = x (ix3 b s d))
    (hc0 : bc (ix4_2 j) = comb (ix4 b s 0 n)) (hr0 : br (ix4_3 j) = res (ix4 b s 0 d))
    (hc1 : bc (ix4_4 j) = comb (ix4 b s 1 n)) (hr1 : br (ix4_5 j) = res (ix4 b s 1 d))
    (hc2 : bc (ix4_6 j) = comb (ix4 b s 2 n)) (hr2 : br (ix4_7 j) = res (ix4 b s 2 d))
    (hc3 : bc (ix4_8 j) = comb (ix4 b s 3 n)) (hr3 : br (ix4_9 j) = res (ix4 b s 3 d)) :
    E4 bp bx bc br j = mixedAt x res post comb b s n d := by
  show bp (ix4_0 j) * bx (ix4_1 j) + bc (ix4_2 j) * br (ix4_3 j) + bc (ix4_4 j) * br (ix4_5 j) + bc (ix4_6 j) * br (ix4_7 j)
      + bc (ix4_8 j) * br (ix4_9 j) = _
  rw [hp, hx, hc0, hr0, hc1, hr1, hc2, hr2, hc3, hr3]
  exact nested_eq_sum _ fun k => comb (ix4 b s k n) * res (ix4 b s k d)

/-! ## What a point writes back -/

/-- Point `t` writes back the block of `mixed` of the argument arrays that lies under its output block. -/
theorem flushed_eq (c : Dev nD) (t : Fin cfg0.N) :
    (dats m 0 c).flushed 4 t
      = ((cfg0.win 4).blk t).view.read (Elt Ideal) (mixed (V m c main_arg0) (V m c main_arg1) (V m c main_arg2) (V m c main_arg3)) := by
  rw [flushed4]
  unfold out0_4
  funext j
  refine (canon4_eq _ _ _ _ j).trans ?_
  simp only [View.ld_unit_zero (S := S1x128x2048) zero3, View.ld_unit_zero (S := S1x128x4) zero3,
    View.ld_unit_zero (S := S1x128x4x4) zero4, View.ld_unit_zero (S := S1x128x4x2048) zero4]
  rw [View.read_apply]
  obtain ⟨f42, f43, f00, f01, f02, f10, f11, f12, f13, f20, f21, f22, f30, f31, f32, f33⟩ := index_facts t
  have hj0 : (j 0).val < 1 := (j 0).isLt
  have hj1 : (j 1).val < 128 := (j 1).isLt
  have hj2 : (j 2).val < 4 := (j 2).isLt
  have hj3 : (j 3).val < 2048 := (j 3).isLt
  -- the array index under block entry `j`
  generalize he : ((cfg0.win 4).blk t).view.emb j = e
  have e0 : (e 0).val = win0_4.index t (0 : Fin 4) * 1 + 1 * (j 0).val := by rw [← he]; rfl
  have e1 : (e 1).val = win0_4.index t (1 : Fin 4) * 128 + 1 * (j 1).val := by rw [← he]; rfl
  have e2 : (e 2).val = win0_4.index t (2 : Fin 4) * 4 + 1 * (j 2).val := by rw [← he]; rfl
  have e3 : (e 3).val = win0_4.index t (3 : Fin 4) * 2048 + 1 * (j 3).val := by rw [← he]; rfl
  show E4 (iblk m c 2 t) (iblk m c 0 t) (iblk m c 3 t) (iblk m c 1 t) j
    = mixedAt (V m c main_arg0) (V m c main_arg1) (V m c main_arg2) (V m c main_arg3) (e 0) (e 1) (e 2) (e 3)
  refine block_entry (V m c main_arg0) (V m c main_arg1) (V m c main_arg2) (V m c main_arg3)
    (iblk m c 2 t) (iblk m c 0 t) (iblk m c 3 t) (iblk m c 1 t) j (e 0) (e 1) (e 2) (e 3) ?_ ?_ ?_ ?_ ?_ ?_ ?_ ?_ ?_ ?_
  · refine post_read m c t _ _ ?_ ?_ ?_
    · show (e 0).val = win0_2.index t (0 : Fin 3) * 1 + 0; omega
    · show (e 1).val = win0_2.index t (1 : Fin 3) * 128 + (j 1).val; omega
    · show (e 2).val = win0_2.index t (2 : Fin 3) * 4 + (j 2).val; omega
  · refine x_read m c t _ _ ?_ ?_ ?_
    · show (e 0).val = win0_0.index t (0 : Fin 3) * 1 + 0; omega
    · show (e 1).val = win0_0.index t (1 : Fin 3) * 128 + (j 1).val; omega
    · show (e 3).val = win0_0.index t (2 : Fin 3) * 2048 + (j 3).val; omega
  · refine comb_read m c t _ _ ?_ ?_ ?_ ?_
    · show (e 0).val = win0_3.index t (0 : Fin 4) * 1 + 0; omega
    · show (e 1).val = win0_3.index t (1 : Fin 4) * 128 + (j 1).val; omega
    · show 0 = win0_3.index t (2 : Fin 4) * 4 + 0; omega
    · show (e 2).val = win0_3.index t (3 : Fin 4) * 4 + (j 2).val; omega
  · refine res_read m c t _ _ ?_ ?_ ?_ ?_
    · show (e 0).val = win0_1.index t (0 : Fin 4) * 1 + 0; omega
    · show (e 1).val = win0_1.index t (1 : Fin 4) * 128 + (j 1).val; omega
    · show 0 = win0_1.index t (2 : Fin 4) * 4 + 0; omega
    · show (e 3).val = win0_1.index t (3 : Fin 4) * 2048 + (j 3).val; omega
  · refine comb_read m c t _ _ ?_ ?_ ?_ ?_
    · show (e 0).val = win0_3.index t (0 : Fin 4) * 1 + 0; omega
    · show (e 1).val = win0_3.index t (1 : Fin 4) * 128 + (j 1).val; omega
    · show 1 = win0_3.index t (2 : Fin 4) * 4 + 1; omega
    · show (e 2).val = win0_3.index t (3 : Fin 4) * 4 + (j 2).val; omega
  · refine res_read m c t _ _ ?_ ?_ ?_ ?_
    · show (e 0).val = win0_1.index t (0 : Fin 4) * 1 + 0; omega
    · show (e 1).val = win0_1.index t (1 : Fin 4) * 128 + (j 1).val; omega
    · show 1 = win0_1.index t (2 : Fin 4) * 4 + 1; omega
    · show (e 3).val = win0_1.index t (3 : Fin 4) * 2048 + (j 3).val; omega
  · refine comb_read m c t _ _ ?_ ?_ ?_ ?_
    · show (e 0).val = win0_3.index t (0 : Fin 4) * 1 + 0; omega
    · show (e 1).val = win0_3.index t (1 : Fin 4) * 128 + (j 1).val; omega
    · show 2 = win0_3.index t (2 : Fin 4) * 4 + 2; omega
    · show (e 2).val = win0_3.index t (3 : Fin 4) * 4 + (j 2).val; omega
  · refine res_read m c t _ _ ?_ ?_ ?_ ?_
    · show (e 0).val = win0_1.index t (0 : Fin 4) * 1 + 0; omega
    · show (e 1).val = win0_1.index t (1 : Fin 4) * 128 + (j 1).val; omega
    · show 2 = win0_1.index t (2 : Fin 4) * 4 + 2; omega
    · show (e 3).val = win0_1.index t (3 : Fin 4) * 2048 + (j 3).val; omega
  · refine comb_read m c t _ _ ?_ ?_ ?_ ?_
    · show (e 0).val = win0_3.index t (0 : Fin 4) * 1 + 0; omega
    · show (e 1).val = win0_3.index t (1 : Fin 4) * 128 + (j 1).val; omega
    · show 3 = win0_3.index t (2 : Fin 4) * 4 + 3; omega
    · show (e 2).val = win0_3.index t (3 : Fin 4) * 4 + (j 2).val; omega
  · refine res_read m c t _ _ ?_ ?_ ?_ ?_
    · show (e 0).val = win0_1.index t (0 : Fin 4) * 1 + 0; omega
    · show (e 1).val = win0_1.index t (1 : Fin 4) * 128 + (j 1).val; omega
    · show 3 = win0_1.index t (2 : Fin 4) * 4 + 3; omega
    · show (e 3).val = win0_1.index t (3 : Fin 4) * 2048 + (j 3).val; omega

/-! ## The blocks tile the result array -/

/-- An index of the result array is in point `t`'s output block iff each coordinate is in the block's range. -/
theorem mem_block (t : Fin cfg0.N) (i : S4x4096x4x2048.Idx) :
    i ∈ ((cfg0.win 4).blk t).view.set
      ↔ ∀ a : Fin 4, win0_4.index t a * S1x128x4x2048.size a ≤ (i a).val ∧ (i a).val < win0_4.index t a * S1x128x4x2048.size a + S1x128x4x2048.size a := by
  show i ∈ ((View.whole main_v0).slice (win0_4.rect t)).set ↔ _
  rw [View.set_slice_whole, Rect.mem_set_unit]
  exact Iff.rfl

/-- Every index of the result array is in the output block of the point at its batch and its position's tile. -/
theorem covered (i : S4x4096x4x2048.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4 := (i 2).isLt
  have hi3 : (i 3).val < 2048 := (i 3).isLt
  obtain ⟨t, ht⟩ := index_onto ⟨(i 0).val, hi0⟩ ⟨(i 1).val / 128, by omega⟩
  have q0 : win0_4.index t (0 : Fin 4) = (i 0).val := congrFun ht 0
  have q1 : win0_4.index t (1 : Fin 4) = (i 1).val / 128 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 4 ≤ (i 2).val ∧ (i 2).val < win0_4.index t (2 : Fin 4) * 4 + 4; omega
  | ⟨3, _⟩ => show win0_4.index t (3 : Fin 4) * 2048 ≤ (i 3).val ∧ (i 3).val < win0_4.index t (3 : Fin 4) * 2048 + 2048; omega

/-- So after the run the result array is `mixed` of the argument arrays as launched. -/
theorem final (c : Dev nD) :
    (dats m 0 c).arrAt 4 cfg0.N = mixed (V m c main_arg0) (V m c main_arg1) (V m c main_arg2) (V m c main_arg3) :=
  (dats m 0 c).arrAt_eq_of_cover 4 (mixed (V m c main_arg0) (V m c main_arg1) (V m c main_arg2) (V m c main_arg3))
    (fun t _ => flushed_eq m c t) covered

/-! ## The run, read -/

/-- Every weakly fair execution of the kernel's program ends with the result array at `mixed` of the arguments and
    the arguments unchanged. -/
theorem run : θ_run defs (onTc (τ := τ) (main (F := Ideal))) ⟨m, fun _ => 0, ρ⟩ fun r => ∀ c : Dev nD,
      r.2.mem ((c : Thread nD τ).loc main_v0) = mixed (V m c main_arg0) (V m c main_arg1) (V m c main_arg2) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.PostMix.Kernel

end
-- ==== Proof.RefMixed.lean ====
/-
  The reference's result array is `mixed` of its arguments.

  The reference broadcasts `post` along the feature axis and `x` along the stream axis, multiplies them entry by entry,
  and adds a contraction of `comb` with `res` over the incoming stream with batch and position carried along. Read at an
  entry (b, s, n, d): the first broadcast pair reads `post (b, s, n)`, the second `x (b, s, d)`, and the contraction is the
  sum over `k` of `comb (b, s, k, n) · res (b, s, k, d)` — the definition of `mixed`, term for term.
-/
import proofs.«112528_j41798621724794_1_alg».proof.Proof.Gen.ReferenceIdeal.Read
import proofs.«112528_j41798621724794_1_alg».proof.Proof.MixSpec

noncomputable section

open scoped BigOperators

namespace Cert.PostMix.Reference

open Idealize.ShloMosaic Idealize.ShloMosaic.ValueIdx Cert.ReferenceIdeal Cert.ReferenceIdeal.Read

/-- The reference's last stage, as a function of the four argument arrays, is `mixed`. -/
theorem stage_eq_mixed (x : (⟨S4x4096x2048, .f32⟩ : BufTy).Contents (Elt Ideal)) (res : (⟨S4x4096x4x2048, .f32⟩ : BufTy).Contents (Elt Ideal))
    (post : (⟨S4x4096x4, .f32⟩ : BufTy).Contents (Elt Ideal)) (comb : (⟨S4x4096x4x4, .f32⟩ : BufTy).Contents (Elt Ideal)) :
    val_main_v6 (F := Ideal) x res post comb = mixed x res post comb := by
  funext i
  -- the two broadcasts of `post` read (b, s, n); the two of `x` read (b, s, d)
  have hpost : idx_main_v0 (idx_main_v2 i) = ix3 (i 0 : Fin 4) (i 1 : Fin 4096) (i 2 : Fin 4) :=
    funext fun a => Fin.ext (by match a with | ⟨0, _⟩ => rfl | ⟨1, _⟩ => rfl | ⟨2, _⟩ => rfl)
  have hx : idx_main_v1 (idx_main_v3 i) = ix3 (i 0 : Fin 4) (i 1 : Fin 4096) (i 3 : Fin 2048) :=
    funext fun a => Fin.ext (by match a with | ⟨0, _⟩ => rfl | ⟨1, _⟩ => rfl | ⟨2, _⟩ => rfl)
  -- the contraction's operands at summand `k` read (b, s, k, n) and (b, s, k, d)
  have hcomb : ∀ k : Fin 4, lidx_main_v5 i k = ix4 (i 0 : Fin 4) (i 1 : Fin 4096) k (i 2 : Fin 4) := fun k =>
    funext fun a => Fin.ext (by match a with | ⟨0, _⟩ => rfl | ⟨1, _⟩ => rfl | ⟨2, _⟩ => rfl | ⟨3, _⟩ => rfl)
  have hres : ∀ k : Fin 4, ridx_main_v5 i k = ix4 (i 0 : Fin 4) (i 1 : Fin 4096) k (i 3 : Fin 2048) := fun k =>
    funext fun a => Fin.ext (by match a with | ⟨0, _⟩ => rfl | ⟨1, _⟩ => rfl | ⟨2, _⟩ => rfl | ⟨3, _⟩ => rfl)
  rw [val_main_v6_apply, val_main_v4_apply, val_main_v2_apply, val_main_v0_apply, val_main_v3_apply, val_main_v1_apply,
    val_main_v5_apply, hpost, hx]
  simp only [hcomb, hres]
  rfl

end Cert.PostMix.Reference

end
-- ==== Proof.lean ====
/-
  The kernel and its reference compute, at (batch b, position s, outgoing stream n, feature d),

    post (b, s, n) · x (b, s, d) + Σ_k comb (b, s, k, n) · res (b, s, k, d)        (k the incoming stream, four of them)

  on the extended reals. The kernel walks a 4 × 32 grid of (batch, 128-position tile) blocks and, inside a block, adds
  the four products onto the outer-product entry one after the other; the reference broadcasts, multiplies and adds one
  contraction over `k`. The two differ only in how the five-term sum is grouped, and `+` on the extended reals is
  associative, so they agree at every input: the precondition (finite inputs) is never opened.

  `Proof/MixSpec.lean` states the function (`mixed`) and the regrouping law; `Proof/BlockMixed.lean` shows the kernel's
  result array ends at `mixed` (each grid point writes the block of `mixed` under it, and the blocks tile the array);
  `Proof/RefMixed.lean` shows the reference's result is `mixed`. Both programs run without fault and leave their
  arguments unchanged; the kernel's idealization rewrote nothing, so it is the kernel's own text read on the extended
  reals.
-/
import proofs.«112528_j41798621724794_1_alg».proof.Defs
import proofs.«112528_j41798621724794_1_alg».proof.Proof.Gen.Kernel
import proofs.«112528_j41798621724794_1_alg».proof.Proof.Gen.Kernel.Skeleton
import proofs.«112528_j41798621724794_1_alg».proof.Proof.Gen.Kernel.Launch
import proofs.«112528_j41798621724794_1_alg».proof.Proof.Gen.Kernel.Points
import proofs.«112528_j41798621724794_1_alg».proof.Proof.Gen.Kernel.Frame
import proofs.«112528_j41798621724794_1_alg».proof.Proof.Gen.KernelIdeal
import proofs.«112528_j41798621724794_1_alg».proof.Proof.Gen.KernelIdeal.Skeleton
import proofs.«112528_j41798621724794_1_alg».proof.Proof.Gen.KernelIdeal.Launch
import proofs.«112528_j41798621724794_1_alg».proof.Proof.Gen.KernelIdeal.Points
import proofs.«112528_j41798621724794_1_alg».proof.Proof.Gen.KernelIdeal.Frame
import proofs.«112528_j41798621724794_1_alg».proof.Proof.Gen.ReferenceIdeal
import proofs.«112528_j41798621724794_1_alg».proof.Proof.Gen.Pre_finite_inputs
import proofs.«112528_j41798621724794_1_alg».proof.Proof.Gen.KernelIdeal.Value
import proofs.«112528_j41798621724794_1_alg».proof.Proof.Gen.ReferenceIdeal.Run
import proofs.«112528_j41798621724794_1_alg».proof.Proof.Gen.ReferenceIdeal.Read
import proofs.«112528_j41798621724794_1_alg».proof.Proof.MixSpec
import proofs.«112528_j41798621724794_1_alg».proof.Proof.BlockMixed
import proofs.«112528_j41798621724794_1_alg».proof.Proof.RefMixed
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is seven host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized, so there is nothing to preserve. -/
theorem preserves : Cert.preserves_Kernel_KernelIdeal := trivial

/-- From arguments that agree, the kernel's result array ends at `mixed` of them (the blocks, tiled) and so does the
    reference's (its last stage read entry by entry). -/
theorem algebraic : Cert.algebraic_KernelIdeal_ReferenceIdeal := by
  intro m ρ m' ρ' _ hagree
  refine ⟨_, Cert.PostMix.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.PostMix.Reference.stage_eq_mixed,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
